-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel

variable [Facts]

def fn {F : FTy → Type} [FloatOps F] (main_arg0 : FVec F S32x56x56x256 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  main_v3
-- ==== Kernel.lean ====
abbrev S32x56x56x256 : Shape := ⟨4, ![32, 56, 56, 256]⟩
abbrev S32x3136x256 : Shape := ⟨3, ![32, 3136, 256]⟩
abbrev S1x3136x256 : Shape := ⟨3, ![1, 3136, 256]⟩
abbrev S3136x256 : Shape := ⟨2, ![3136, 256]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S32x56x56x256, .f32⟩
  | .hbm, ⟨1, _⟩ => ⟨S32x3136x256, .f32⟩
  | .hbm, ⟨2, _⟩ => ⟨S32x3136x256, .f32⟩
  | .hbm, ⟨3, _⟩ => ⟨S32x56x56x256, .f32⟩
  | .local _ .vmem, ⟨0, _⟩ => ⟨S1x3136x256, .f32⟩
  | .local _ .vmem, ⟨1, _⟩ => ⟨S1x3136x256, .f32⟩
  | .local _ .vmem, ⟨2, _⟩ => ⟨S1x3136x256, .f32⟩
  | .local _ .vmem, ⟨3, _⟩ => ⟨S1x3136x256, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3136x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x56x56x256_S32x3136x256 : S32x56x56x256.ShapeCasts S32x3136x256
  inb_S1x3136x256_S1x3136x256_0_0_0 : ∀ a, (![0, 0, 0] : Fin 3 → Nat) a + S1x3136x256.size a ≤ S1x3136x256.size a
  h_S1x3136x256 : 0 < S1x3136x256.numel
  shapeCasts_S1x3136x256_S3136x256 : S1x3136x256.ShapeCasts S3136x256
  bitsLt_bf16_f32 : FTy.bits .bf16 < FTy.bits .f32
  reduces_S256x256_S256 : S256x256.Reduces [1] S256
  shapeCasts_S256_S256x1 : S256.ShapeCasts S256x1
  broadcasts_S256x1_S256x256 : S256x1.Broadcasts S256x256
  shapeCasts_S3136x256_S1x3136x256 : S3136x256.ShapeCasts S1x3136x256
  shapeCasts_S32x3136x256_S32x56x56x256 : S32x3136x256.ShapeCasts S32x56x56x256
  dot_S3136x256_S3136x256_S256x256_0_0_1_1_n_n_wf : DotDims.WF S3136x256 S3136x256 S256x256 [0] [0] [1] [1] [] []
  dot_S3136x256_S256x256_S3136x256_1_1_0_0_n_n_wf : DotDims.WF S3136x256 S256x256 S3136x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3136x256.size a ≤ S32x3136x256.size a
  hwx0_0 : ∀ i : grid0.Coords, EltTy.bits .f32 = 32 ∨ (Rect.block (s := S32x3136x256) S1x3136x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3136x256.size a ≤ S32x3136x256.size a
  hwx0_1 : ∀ i : grid0.Coords, EltTy.bits .f32 = 32 ∨ (Rect.block (s := S32x3136x256) S1x3136x256.size (cc0_transform_1 i) (hinb0_1 i)).WholeWords (EltTy.packing .f32)

variable [Facts₀]

def dot_S3136x256_S3136x256_S256x256_0_0_1_1_n_n : DotDims S3136x256 S3136x256 S256x256 where
  lhsContracting := [0]
  rhsContracting := [0]
  lhsNonContracting := [1]
  rhsNonContracting := [1]
  lhsBatch := []
  rhsBatch := []
  wf := dot_S3136x256_S3136x256_S256x256_0_0_1_1_n_n_wf
def dot_S3136x256_S256x256_S3136x256_1_1_0_0_n_n : DotDims S3136x256 S256x256 S3136x256 where
  lhsContracting := [1]
  rhsContracting := [1]
  lhsNonContracting := [0]
  rhsNonContracting := [0]
  lhsBatch := []
  rhsBatch := []
  wf := dot_S3136x256_S256x256_S3136x256_1_1_0_0_n_n_wf

abbrev win0_0 : Pipeline.Window sig grid0 :=
  Pipeline.Window.ofSpec (Memref.whole main_v0) S1x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3136x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x56x56x256 : Shape := ⟨4, ![32, 56, 56, 256]⟩
abbrev S32x3136x256 : Shape := ⟨3, ![32, 3136, 256]⟩
abbrev S32x256x256 : Shape := ⟨3, ![32, 256, 256]⟩
abbrev S_ : Shape := ⟨0, ![]⟩
abbrev S32x256 : Shape := ⟨2, ![32, 256]⟩
abbrev S32x256x1 : Shape := ⟨3, ![32, 256, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x3136x256, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .f32⟩
  | .hbm, ⟨6, _⟩ => ⟨S_, .f32⟩
  | .hbm, ⟨7, _⟩ => ⟨S32x256, .f32⟩
  | .hbm, ⟨8, _⟩ => ⟨S_, .f32⟩
  | .hbm, ⟨9, _⟩ => ⟨S32x256, .f32⟩
  | .hbm, ⟨10, _⟩ => ⟨S32x256, .f32⟩
  | .hbm, ⟨11, _⟩ => ⟨S32x256x1, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256, .f32⟩
  | .hbm, ⟨17, _⟩ => ⟨S32x256x1, .f32⟩
  | .hbm, ⟨18, _⟩ => ⟨S32x256x256, .f32⟩
  | .hbm, ⟨19, _⟩ => ⟨S32x256x256, .f32⟩
  | .hbm, ⟨20, _⟩ => ⟨S32x3136x256, .f32⟩
  | .hbm, ⟨21, _⟩ => ⟨S32x56x56x256, .f32⟩
  | .hbm, ⟨22, _⟩ => ⟨S32x56x56x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S32x56x56x256_S32x3136x256 : S32x56x56x256.ShapeCasts S32x3136x256
  bcast_S_S32x256x256 : S_.BroadcastsInDim S32x256x256 (![] : Fin 0 → Fin S32x256x256.rank)
  reducesTo_S32x256x256_S32x256_d2 : S32x256x256.ReducesTo [2] S32x256
  h_S_ : 0 < S_.numel
  bcast_S_S32x256 : S_.BroadcastsInDim S32x256 (![] : Fin 0 → Fin S32x256.rank)
  bcast_S32x256_S32x256x1_0_1 : S32x256.BroadcastsInDim S32x256x1 (![0, 1] : Fin 2 → Fin S32x256x1.rank)
  bcast_S32x256x1_S32x256x256_0_1_2 : S32x256x1.BroadcastsInDim S32x256x256 (![0, 1, 2] : Fin 3 → Fin S32x256x256.rank)
  shapeCasts_S32x3136x256_S32x56x56x256 : S32x3136x256.ShapeCasts S32x56x56x256
  dot_S32x3136x256_S32x3136x256_S32x256x256_1_1_2_2_0_0_wf : DotDims.WF S32x3136x256 S32x3136x256 S32x256x256 [1] [1] [2] [2] [0] [0]
  dot_S32x3136x256_S32x256x256_S32x3136x256_2_2_1_1_0_0_wf : DotDims.WF S32x3136x256 S32x256x256 S32x3136x256 [2] [2] [1] [1] [0] [0]

variable [Facts₀]

def dot_S32x3136x256_S32x3136x256_S32x256x256_1_1_2_2_0_0 : DotDims S32x3136x256 S32x3136x256 S32x256x256 where
  lhsContracting := [1]
  rhsContracting := [1]
  lhsNonContracting := [2]
  rhsNonContracting := [2]
  lhsBatch := [0]
  rhsBatch := [0]
  wf := dot_S32x3136x256_S32x3136x256_S32x256x256_1_1_2_2_0_0_wf
def dot_S32x3136x256_S32x256x256_S32x3136x256_2_2_1_1_0_0 : DotDims S32x3136x256 S32x256x256 S32x3136x256 where
  lhsContracting := [2]
  rhsContracting := [2]
  lhsNonContracting := [1]
  rhsNonContracting := [1]
  lhsBatch := [0]
  rhsBatch := [0]
  wf := dot_S32x3136x256_S32x256x256_S32x3136x256_2_2_1_1_0_0_wf

class Facts : Prop extends Facts₀ where

variable [Facts]
-- ==== Proof.KernelProducts.lean ====
/-
  The kernel's two matrix products, read at one entry on the extended reals.

  The first contracts the position axis of the image with itself, so entry (i, j) of the 256 × 256 result is the sum
  over positions `d` of `A (d, i) · B (d, j)`.  The second contracts the channel axis of the image with the second
  axis of the weights, so entry (d, i) of the 3136 × 256 result is the sum over channels `j` of
  `A (d, j) · W (i, j)`.  Both accumulate into zero.
-/
import proofs.«172703_j55396488183926_1_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## The product over positions -/

theorem lhs_gram_0 (o : S256x256.Idx) (q : dot_S3136x256_S3136x256_S256x256_0_0_1_1_n_n.contr.Idx) :
    (dot_S3136x256_S3136x256_S256x256_0_0_1_1_n_n.lhsIdx o q 0).val = (q ⟨0, by decide⟩).val :=
  dot_S3136x256_S3136x256_S256x256_0_0_1_1_n_n.lhsIdx_val_of_single rfl o q
theorem lhs_gram_1 (o : S256x256.Idx) (q : dot_S3136x256_S3136x256_S256x256_0_0_1_1_n_n.contr.Idx) :
    (dot_S3136x256_S3136x256_S256x256_0_0_1_1_n_n.lhsIdx o q 1).val = (o 0).val := by
  unfold DotDims.lhsIdx
  rw [dif_neg (show ¬(1 : Fin S3136x256.rank) ∈ dot_S3136x256_S3136x256_S256x256_0_0_1_1_n_n.lhsBatch by decide), dif_pos (show (1 : Fin S3136x256.rank) ∈ dot_S3136x256_S3136x256_S256x256_0_0_1_1_n_n.lhsNonContracting by decide)]
  rfl
theorem rhs_gram_0 (o : S256x256.Idx) (q : dot_S3136x256_S3136x256_S256x256_0_0_1_1_n_n.contr.Idx) :
    (dot_S3136x256_S3136x256_S256x256_0_0_1_1_n_n.rhsIdx o q 0).val = (q ⟨0, by decide⟩).val :=
  dot_S3136x256_S3136x256_S256x256_0_0_1_1_n_n.rhsIdx_val_of_single rfl o q
theorem rhs_gram_1 (o : S256x256.Idx) (q : dot_S3136x256_S3136x256_S256x256_0_0_1_1_n_n.contr.Idx) :
    (dot_S3136x256_S3136x256_S256x256_0_0_1_1_n_n.rhsIdx o q 1).val = (o 1).val := by
  unfold DotDims.rhsIdx
  rw [dif_neg (show ¬(1 : Fin S3136x256.rank) ∈ dot_S3136x256_S3136x256_S256x256_0_0_1_1_n_n.rhsBatch by decide), dif_pos (show (1 : Fin S3136x256.rank) ∈ dot_S3136x256_S3136x256_S256x256_0_0_1_1_n_n.rhsNonContracting by decide)]
  rfl

/-- Entry (i, j) of the product over positions. -/
theorem gram_apply {φ₁ φ₂ : FTy} (A : FVec Ideal S3136x256 φ₁) (B : FVec Ideal S3136x256 φ₂) (i j : Fin 256) :
    matmul dot_S3136x256_S3136x256_S256x256_0_0_1_1_n_n none A B (constant (F := Ideal) S256x256 .f32 0x00000000#32) (ix2 i j)
      = ∑ d : Fin 3136, A (ix2 d i) * B (ix2 d j) := by
  simp only [matmul]
  rw [Ideal.matmul_constant_zero_apply, ← Equiv.sum_comp (contrEquiv1 dot_S3136x256_S3136x256_S256x256_0_0_1_1_n_n 3136 rfl rfl).symm]
  refine Finset.sum_congr rfl fun k _ => ?_
  have hk := contrEquiv1_symm_val dot_S3136x256_S3136x256_S256x256_0_0_1_1_n_n 3136 rfl rfl k
  have el : dot_S3136x256_S3136x256_S256x256_0_0_1_1_n_n.lhsIdx (ix2 i j) ((contrEquiv1 dot_S3136x256_S3136x256_S256x256_0_0_1_1_n_n 3136 rfl rfl).symm k) = ix2 k i := funext fun a => Fin.ext (by
    match a with
    | ⟨0, _⟩ => exact (lhs_gram_0 _ _).trans hk
    | ⟨1, _⟩ => exact lhs_gram_1 _ _)
  have er : dot_S3136x256_S3136x256_S256x256_0_0_1_1_n_n.rhsIdx (ix2 i j) ((contrEquiv1 dot_S3136x256_S3136x256_S256x256_0_0_1_1_n_n 3136 rfl rfl).symm k) = ix2 k j := funext fun a => Fin.ext (by
    match a with
    | ⟨0, _⟩ => exact (rhs_gram_0 _ _).trans hk
    | ⟨1, _⟩ => exact rhs_gram_1 _ _)
  rw [el, er]

/-! ## The product over channels -/

theorem lhs_mix_0 (o : S3136x256.Idx) (q : dot_S3136x256_S256x256_S3136x256_1_1_0_0_n_n.contr.Idx) :
    (dot_S3136x256_S256x256_S3136x256_1_1_0_0_n_n.lhsIdx o q 0).val = (o 0).val := by
  unfold DotDims.lhsIdx
  rw [dif_neg (show ¬(0 : Fin S3136x256.rank) ∈ dot_S3136x256_S256x256_S3136x256_1_1_0_0_n_n.lhsBatch by decide), dif_pos (show (0 : Fin S3136x256.rank) ∈ dot_S3136x256_S256x256_S3136x256_1_1_0_0_n_n.lhsNonContracting by decide)]
  rfl
theorem lhs_mix_1 (o : S3136x256.Idx) (q : dot_S3136x256_S256x256_S3136x256_1_1_0_0_n_n.contr.Idx) :
    (dot_S3136x256_S256x256_S3136x256_1_1_0_0_n_n.lhsIdx o q 1).val = (q ⟨0, by decide⟩).val :=
  dot_S3136x256_S256x256_S3136x256_1_1_0_0_n_n.lhsIdx_val_of_single rfl o q
theorem rhs_mix_0 (o : S3136x256.Idx) (q : dot_S3136x256_S256x256_S3136x256_1_1_0_0_n_n.contr.Idx) :
    (dot_S3136x256_S256x256_S3136x256_1_1_0_0_n_n.rhsIdx o q 0).val = (o 1).val := by
  unfold DotDims.rhsIdx
  rw [dif_neg (show ¬(0 : Fin S256x256.rank) ∈ dot_S3136x256_S256x256_S3136x256_1_1_0_0_n_n.rhsBatch by decide), dif_pos (show (0 : Fin S256x256.rank) ∈ dot_S3136x256_S256x256_S3136x256_1_1_0_0_n_n.rhsNonContracting by decide)]
  rfl
theorem rhs_mix_1 (o : S3136x256.Idx) (q : dot_S3136x256_S256x256_S3136x256_1_1_0_0_n_n.contr.Idx) :
    (dot_S3136x256_S256x256_S3136x256_1_1_0_0_n_n.rhsIdx o q 1).val = (q ⟨0, by decide⟩).val :=
  dot_S3136x256_S256x256_S3136x256_1_1_0_0_n_n.rhsIdx_val_of_single rfl o q

/-- Entry (d, i) of the product over channels. -/
theorem mix_apply {φ₁ φ₂ : FTy} (A : FVec Ideal S3136x256 φ₁) (W : FVec Ideal S256x256 φ₂) (d : Fin 3136) (i : Fin 256) :
    matmul dot_S3136x256_S256x256_S3136x256_1_1_0_0_n_n none A W (constant (F := Ideal) S3136x256 .f32 0x00000000#32) (ix2 d i)
      = ∑ j : Fin 256, A (ix2 d j) * W (ix2 i j) := by
  simp only [matmul]
  rw [Ideal.matmul_constant_zero_apply, ← Equiv.sum_comp (contrEquiv1 dot_S3136x256_S256x256_S3136x256_1_1_0_0_n_n 256 rfl rfl).symm]
  refine Finset.sum_congr rfl fun k _ => ?_
  have hk := contrEquiv1_symm_val dot_S3136x256_S256x256_S3136x256_1_1_0_0_n_n 256 rfl rfl k
  have el : dot_S3136x256_S256x256_S3136x256_1_1_0_0_n_n.lhsIdx (ix2 d i) ((contrEquiv1 dot_S3136x256_S256x256_S3136x256_1_1_0_0_n_n 256 rfl rfl).symm k) = ix2 d k := funext fun a => Fin.ext (by
    match a with
    | ⟨0, _⟩ => exact lhs_mix_0 _ _
    | ⟨1, _⟩ => exact (lhs_mix_1 _ _).trans hk)
  have er : dot_S3136x256_S256x256_S3136x256_1_1_0_0_n_n.rhsIdx (ix2 d i) ((contrEquiv1 dot_S3136x256_S256x256_S3136x256_1_1_0_0_n_n 256 rfl rfl).symm k) = ix2 i k := funext fun a => Fin.ext (by
    match a with
    | ⟨0, _⟩ => exact rhs_mix_0 _ _
    | ⟨1, _⟩ => exact (rhs_mix_1 _ _).trans hk)
  rw [el, er]

end Cert.KernelIdeal.Products

end
-- ==== Proof.Attention.lean ====
/-
  Channel-wise self-attention of one image, as a function on the extended reals.

  For one batch entry the input is a matrix `y` of 3136 spatial positions by 256 channels.  The channel-by-channel
  correlation is `gram y i j = Σ_d y d i · y d j`; it is scaled by the constant 1/16 (kept as the binary word both
  programs carry, never evaluated), each row `i` is shifted by its own maximum over `j`, exponentiated and divided by
  the row's sum of exponentials (`soft`), and position `d` of the result mixes the channels of that position with
  those weights and adds the input back: `attend y d i = Σ_j y d j · soft (gram y) i j + y d i`.
-/
import Idealize.ShloMosaic.Lib.ValueIdx
import Idealize.ShloMosaic.PureOps.Ideal.Laws

noncomputable section

namespace Cert.ChannelAttn

open Idealize.ShloMosaic

/-- The scale 256^(-1/2) = 1/16, as the f32 word both programs multiply by. -/
abbrev scale : EReal := Ideal.ofBits .f32 0x3D800000#32
/-- The word both maxima start from (the f32 pattern of -∞). -/
abbrev floorWord : EReal := Ideal.ofBits .f32 0xFF800000#32

/-- The channel-by-channel correlation of one image: positions are summed out. -/
def gram (y : Fin 3136 → Fin 256 → EReal) (i j : Fin 256) : EReal := ∑ d : Fin 3136, y d i * y d j

/-- The largest scaled entry of row `i`, folded from the floor word and then compared with it once more. -/
def rowMax (g : Fin 256 → Fin 256 → EReal) (i : Fin 256) : EReal :=
  max floorWord ((Finset.univ : Finset (Fin 256)).fold max floorWord (fun j => g i j * scale))

/-- The exponential of a scaled entry shifted by its row's maximum. -/
def expo (g : Fin 256 → Fin 256 → EReal) (i j : Fin 256) : EReal := Ideal.exp (g i j * scale - rowMax g i)

/-- The softmax weight: the shifted exponential over its row's sum. -/
def soft (g : Fin 256 → Fin 256 → EReal) (i j : Fin 256) : EReal :=
  Ideal.div (expo g i j) (∑ k : Fin 256, expo g i k)

/-- Position `d`, channel `i` of the result: the channels of position `d` mixed by row `i` of the weights, plus
    the input entry. -/
def attend (y : Fin 3136 → Fin 256 → EReal) (d : Fin 3136) (i : Fin 256) : EReal :=
  (∑ j : Fin 256, y d j * soft (gram y) i j) + y d i

/-- The whole batch: image `b` of a 32 × 3136 × 256 array is attended on its own. -/
def attendAll (a : (⟨3, ![32, 3136, 256]⟩ : Shape).Idx → EReal) : (⟨3, ![32, 3136, 256]⟩ : Shape).Idx → EReal :=
  fun i => attend (fun d c => a (ValueIdx.ix3 (i 0) d c)) (i 1) (i 2)

end Cert.ChannelAttn

end
-- ==== Proof.KernelBlock.lean ====
/-
  What the kernel's body computes from one image, entry by entry.

  The body's one store holds, at position `d` and channel `i`, `attend y d i` of the loaded image `y`: the
  correlation is the product over positions, the row maximum and the row sum are lane reductions read as a fold of
  `max` and as a sum over the row, a length-256 vector laid out as a column and repeated across the row reads its
  row's entry, and the last product is the sum over channels against the weights.  The two changes of float format
  are the identity on the extended reals.
-/
import proofs.«172703_j55396488183926_1_alg».proof.Proof.Gen.KernelIdeal.Skeleton
import proofs.«172703_j55396488183926_1_alg».proof.Proof.KernelProducts
import proofs.«172703_j55396488183926_1_alg».proof.Proof.Attention
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.ValueIdx Cert.ChannelAttn

/-! ## The body's stages, named -/

/-- The correlation scaled by 1/16. -/
def scaled (g : FVec Ideal S256x256 .f32) : FVec Ideal S256x256 .f32 :=
  mulf g (broadcast S256x256 (Scalar.ofBits .f32 0x3D800000#32))

/-- Each row's maximum. -/
def rowTop (g : FVec Ideal S256x256 .f32) : FVec Ideal S256 .f32 :=
  maximumf (broadcast S256 (Scalar.ofBits .f32 0xFF800000#32))
    (multiReduction .maximumf [1] S256 (scaled g) 0xFF800000#32 reduces_S256x256_S256 (.inl rfl) rfl)

/-- A vector of row values laid out as a column and repeated along each row. -/
def alongRows (v : FVec Ideal S256 .f32) : FVec Ideal S256x256 .f32 :=
  broadcastTo S256x256 (shapeCast S256x1 v shapeCasts_S256_S256x1) broadcasts_S256x1_S256x256

/-- The shifted exponentials. -/
def expd (g : FVec Ideal S256x256 .f32) : FVec Ideal S256x256 .f32 :=
  exp (subf (scaled g) (alongRows (rowTop g)))

/-- Each row's sum of exponentials. -/
def rowSum (g : FVec Ideal S256x256 .f32) : FVec Ideal S256 .f32 :=
  multiReduction .add [1] S256 (expd g) 0x00000000#32 reduces_S256x256_S256 (.inl rfl) rfl

/-- The weights. -/
def weights (g : FVec Ideal S256x256 .f32) : FVec Ideal S256x256 .f32 :=
  divf (expd g) (alongRows (rowSum g))

/-- The whole body on the image with its leading unit axis dropped. -/
def block (x : FVec Ideal S3136x256 .f32) : FVec Ideal S3136x256 .f32 :=
  addf (matmul dot_S3136x256_S256x256_S3136x256_1_1_0_0_n_n none (truncf .bf16 x bitsLt_bf16_f32)
      (truncf .bf16 (weights (matmul dot_S3136x256_S3136x256_S256x256_0_0_1_1_n_n none (truncf .bf16 x bitsLt_bf16_f32)
        (truncf .bf16 x bitsLt_bf16_f32) (constant S256x256 .f32 0x00000000#32))) bitsLt_bf16_f32)
      (constant S3136x256 .f32 0x00000000#32)) x

/-- The store's value is `block` between the two casts of the unit axis. -/
theorem pay_eq (v0 : Vec Ideal S1x3136x256 .f32) :
    k0_pay1 (F := Ideal) v0
      = shapeCast S1x3136x256 (block (shapeCast S3136x256 v0 shapeCasts_S1x3136x256_S3136x256)) shapeCasts_S3136x256_S1x3136x256 := rfl

/-! ## The stages at an entry -/

/-- Row `i` with the reduced coordinate put back at `k` is entry (i, k). -/
theorem lift_row (h : S256x256.Reduces [1] S256) (i : Fin 256) (k : Fin (S256x256.size 1)) :
    h.lift (ix1 i) k = ix2 i (⟨k.val, k.isLt⟩ : Fin 256) := by
  funext c; apply Fin.ext
  fin_cases c <;> rfl

theorem alongRows_apply (v : FVec Ideal S256 .f32) (i j : Fin 256) : alongRows v (ix2 i j) = v (ix1 i) := by
  unfold alongRows
  rw [broadcastTo_apply _ broadcasts_S256x1_S256x256 (ix2 i j) (ix2 i (0 : Fin 1)) (fun a => by
    match a with
    | ⟨0, _⟩ => show i.val = if (256 : Nat) = 1 then 0 else i.val; rw [if_neg (by decide)]
    | ⟨1, _⟩ => show 0 = if (1 : Nat) = 1 then 0 else j.val; rw [if_pos rfl])]
  exact shapeCast_apply v shapeCasts_S256_S256x1 _ _ (by
    rw [Shape.rowMajor_val_one, Shape.rowMajor_val_two]
    show i.val = i.val * 1 + 0
    omega)

theorem scaled_apply (g : FVec Ideal S256x256 .f32) (i j : Fin 256) : scaled g (ix2 i j) = g (ix2 i j) * scale := rfl

theorem rowTop_apply (g : FVec Ideal S256x256 .f32) (i : Fin 256) :
    rowTop g (ix1 i) = rowMax (fun a b => g (ix2 a b)) i := by
  unfold rowTop rowMax
  show max floorWord (multiReduction .maximumf [1] S256 (scaled g) 0xFF800000#32 reduces_S256x256_S256 (.inl rfl) rfl (ix1 i)) = _
  refine congrArg (max floorWord) ?_
  refine (Ideal.multiReduction_maximumf_single (scaled g) 0xFF800000#32 reduces_S256x256_S256 (.inl rfl) rfl (ix1 i)).trans ?_
  refine congrArg (fun f => Finset.fold max floorWord f (Finset.univ : Finset (Fin 256))) ?_
  funext k
  show scaled g (reduces_S256x256_S256.lift (ix1 i) k) = _
  rw [lift_row]
  rfl

theorem expd_apply (g : FVec Ideal S256x256 .f32) (i j : Fin 256) :
    expd g (ix2 i j) = expo (fun a b => g (ix2 a b)) i j := by
  unfold expd expo
  show Ideal.exp (scaled g (ix2 i j) - alongRows (rowTop g) (ix2 i j)) = _
  rw [alongRows_apply, rowTop_apply]
  rfl

theorem rowSum_apply (g : FVec Ideal S256x256 .f32) (i : Fin 256) :
    rowSum g (ix1 i) = ∑ k : Fin 256, expo (fun a b => g (ix2 a b)) i k := by
  unfold rowSum
  refine (Ideal.multiReduction_add_single (expd g) 0x00000000#32 reduces_S256x256_S256 (.inl rfl) rfl (ix1 i)).trans ?_
  refine Finset.sum_congr rfl fun k _ => ?_
  rw [lift_row]
  exact expd_apply g i k

theorem weights_apply (g : FVec Ideal S256x256 .f32) (i j : Fin 256) :
    weights g (ix2 i j) = soft (fun a b => g (ix2 a b)) i j := by
  unfold weights soft
  show Ideal.div (expd g (ix2 i j)) (alongRows (rowSum g) (ix2 i j)) = _
  rw [alongRows_apply, rowSum_apply, expd_apply]

/-- The body's result at position `d`, channel `i`. -/
theorem block_apply (x : FVec Ideal S3136x256 .f32) (d : Fin 3136) (i : Fin 256) :
    block x (ix2 d i) = attend (fun a b => x (ix2 a b)) d i := by
  unfold block attend
  show matmul dot_S3136x256_S256x256_S3136x256_1_1_0_0_n_n none (truncf .bf16 x bitsLt_bf16_f32) _ (constant S3136x256 .f32 0x00000000#32) (ix2 d i) + x (ix2 d i) = _
  rw [Products.mix_apply]
  refine congrArg (· + x (ix2 d i)) (Finset.sum_congr rfl fun j _ => ?_)
  show x (ix2 d j) * weights _ (ix2 i j) = _
  rw [weights_apply]
  refine congrArg (fun g => x (ix2 d j) * soft g i j) ?_
  funext a b
  exact Products.gram_apply _ _ a b

end Cert.KernelIdeal.Block

end
-- ==== Proof.KernelResult.lean ====
/-
  What the kernel program leaves in its result.

  Grid point `t` loads image `t` of the reshaped input and writes image `t` of the output array; the 32 points tile
  that array, so after the run it holds the attended batch.  The host reshapes the input to 32 × 3136 × 256 before the
  call and reshapes the output array back to four axes after it.
-/
import proofs.«172703_j55396488183926_1_alg».proof.Proof.Gen.KernelIdeal.Frame
import proofs.«172703_j55396488183926_1_alg».proof.Proof.KernelBlock
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.ChannelAttn

variable (m : (ℓ : Loc nD τ sig) → Buf (Elt Ideal) ℓ) (ρ : Dev nD → PrngReg)

theorem hz : (![0, 0, 0] : Fin 3 → Nat) = fun _ => 0 := funext fun a => by fin_cases a <;> rfl

/-- Both windows sit at block (t, 0, 0) at point `t`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The grid point as an image number. -/
abbrev image (t : Fin cfg0.N) : Fin 32 := t.cast N_0

/-- One entry of the stored block: `attend` of the loaded image with its unit axis dropped. -/
theorem block_entry (x0 : Vec Ideal S1x3136x256 .f32) (y : S1x3136x256.Idx) :
    shapeCast S1x3136x256 (Block.block (shapeCast S3136x256 x0 shapeCasts_S1x3136x256_S3136x256)) shapeCasts_S3136x256_S1x3136x256 y
      = attend (fun a b => x0 (ix3 (0 : Fin 1) a b)) (y 1) (y 2) := by
  obtain ⟨u, p, q, rfl⟩ : ∃ (u : Fin 1) (p : Fin 3136) (q : Fin 256), y = ix3 u p q := ⟨y 0, y 1, y 2, eq_ix3 y⟩
  rw [shapeCast_ab_1ab_apply, Block.block_apply]
  refine congrArg (fun f => attend f p q) ?_
  funext a b
  exact shapeCast_1ab_ab_apply x0 _ a b

/-- An entry of point `t`'s input block is that entry of image `t` of the array the region finds. -/
theorem iblk_entry (c : Dev nD) (t : Fin cfg0.N) (a : Fin 3136) (b : Fin 256) :
    (iblk m c 0 t : Vec Ideal S1x3136x256 .f32) (ix3 (0 : Fin 1) a b)
      = (V m c main_v0 : S32x3136x256.Idx → EReal) (ix3 (image t) a b) := by
  obtain ⟨e0, e1, e2, -, -, -⟩ := idx_facts t
  unfold iblk
  rw [View.read_apply]
  show V m c main_v0 _ = V m c main_v0 _
  congr 1
  funext x; apply Fin.ext
  match x with
  | ⟨0, _⟩ => show win0_0.index t (0 : Fin 3) * 1 + 1 * 0 = t.val; omega
  | ⟨1, _⟩ => show win0_0.index t (1 : Fin 3) * 3136 + 1 * a.val = a.val; omega
  | ⟨2, _⟩ => show win0_0.index t (2 : Fin 3) * 256 + 1 * b.val = b.val; omega

/-- What point `t` writes back is image `t` of the attended batch. -/
theorem flushed_eq (c : Dev nD) (t : Fin cfg0.N) :
    (dats m 0 c).flushed 1 t = ((cfg0.win 1).blk t).view.read (Elt Ideal) (attendAll (V m c main_v0)) := by
  show (cfg0.win 1).cut (grid0.coords t) ((dats m 0 c).after 1 t) = _
  rw [after0_1]
  unfold out0_1
  rw [View.canon_unit_zero hz]
  simp only [View.ld_unit_zero (S := S1x3136x256) hz]
  rw [Block.pay_eq]
  obtain ⟨-, -, -, e3, e4, e5⟩ := idx_facts t
  funext j
  show shapeCast S1x3136x256 (Block.block (shapeCast S3136x256 (iblk m c 0 t) shapeCasts_S1x3136x256_S3136x256)) shapeCasts_S3136x256_S1x3136x256 j
    = attendAll (V m c main_v0) (((cfg0.win 1).blk t).view.emb j)
  refine (block_entry (iblk m c 0 t) j).trans ?_
  have he : ((cfg0.win 1).blk t).view.emb j = (ix3 (image t) (j 1) (j 2) : S32x3136x256.Idx) := by
    funext x; apply Fin.ext
    match x with
    | ⟨0, _⟩ => show win0_1.index t (0 : Fin 3) * 1 + 1 * (j 0).val = t.val; have hj : (j 0).val < 1 := (j 0).isLt; omega
    | ⟨1, _⟩ => show win0_1.index t (1 : Fin 3) * 3136 + 1 * (j 1).val = (j 1).val; omega
    | ⟨2, _⟩ => show win0_1.index t (2 : Fin 3) * 256 + 1 * (j 2).val = (j 2).val; omega
  rw [he]
  unfold attendAll
  refine congrArg (fun f => attend f (j 1) (j 2)) ?_
  funext a b
  exact iblk_entry m c t a b

/-- An index of the output array is in point `t`'s block iff each coordinate is in the block's range. -/
theorem mem_blk (t : Fin cfg0.N) (i : S32x3136x256.Idx) :
    i ∈ ((cfg0.win 1).blk t).view.set ↔ ∀ a : Fin 3, win0_1.index t a * S1x3136x256.size a ≤ (i a).val
      ∧ (i a).val < win0_1.index t a * S1x3136x256.size a + S1x3136x256.size a := by
  show i ∈ ((View.whole main_v1).slice (win0_1.rect t)).set ↔ _
  rw [View.set_slice_whole, Rect.mem_set_unit]
  exact Iff.rfl

/-- Entry (b, d, i) of the output array lies in the block of point `b`. -/
theorem cover (i : S32x3136x256.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 3136 := (i 1).isLt
  have h2 : (i 2).val < 256 := (i 2).isLt
  refine ⟨⟨(i 0).val, by omega⟩, flush0_1 _, ?_⟩
  rw [mem_blk]
  obtain ⟨-, -, -, e3, e4, e5⟩ := idx_facts ⟨(i 0).val, by omega⟩
  intro a
  match a with
  | ⟨0, _⟩ => show win0_1.index _ (0 : Fin 3) * 1 ≤ (i 0).val ∧ (i 0).val < win0_1.index _ (0 : Fin 3) * 1 + 1; simp only at e3; omega
  | ⟨1, _⟩ => show win0_1.index _ (1 : Fin 3) * 3136 ≤ (i 1).val ∧ (i 1).val < win0_1.index _ (1 : Fin 3) * 3136 + 3136; omega
  | ⟨2, _⟩ => show win0_1.index _ (2 : Fin 3) * 256 ≤ (i 2).val ∧ (i 2).val < win0_1.index _ (2 : Fin 3) * 256 + 256; omega

/-- The output array after the run is the attended batch. -/
theorem final (c : Dev nD) : (dats m 0 c).arrAt 1 cfg0.N = attendAll (V m c main_v0) :=
  (dats m 0 c).arrAt_eq_of_cover 1 (attendAll (V m c main_v0)) (fun t _ => flushed_eq m c t) cover

/-- The array the region finds is the input reshaped to 32 images. -/
theorem entry_eq (c : Dev nD) :
    (V m c main_v0 : S32x3136x256.Idx → EReal)
      = shapeCast S32x3136x256 (m ((c : Thread nD τ).loc main_arg0)) shapeCasts_S32x56x56x256_S32x3136x256 := by
  show StableHlo.after hostOps0 (fun b => m (c, b)) (Proc.devRef .tc main_v0) = _
  after_results
  rfl

/-- The program's result after the closing reshape. -/
theorem tail_eq (c : Dev nD) :
    Pipeline.afterTail₀ cfgs (dats m) 0 (V0 m) [hostOps1] c main_v2
      = shapeCast S32x56x56x256 (attendAll (shapeCast S32x3136x256 (m ((c : Thread nD τ).loc main_arg0)) shapeCasts_S32x56x56x256_S32x3136x256))
          shapeCasts_S32x3136x256_S32x56x56x256 := by
  unfold Pipeline.afterTail₀
  show StableHlo.after hostOps1 _ (Proc.devRef .tc main_v2) = _
  after_results
  have key : Pipeline.withArrays (cfgs 0).spec c (V0 m c) (fun w => (dats m 0 c).arrAt w (cfgs 0).N) (Proc.devRef .tc main_v1)
      = attendAll (shapeCast S32x3136x256 (m ((c : Thread nD τ).loc main_arg0)) shapeCasts_S32x56x56x256_S32x3136x256) :=
    ((Pipeline.withArrays_arr spec0 launch0.win.arr_inj c _ _ 1).trans (final m c)).trans (congrArg attendAll (entry_eq m c))
  rw [key]
  rfl

/-- The run, read: the result at the attended batch reshaped back to four axes, the argument unchanged. -/
theorem run : θ_run defs (onTc (τ := τ) (main (F := Ideal))) ⟨m, fun _ => 0, ρ⟩ fun r => ∀ c : Dev nD,
      r.2.mem ((c.tc : Thread nD τ).loc main_v2)
        = shapeCast S32x56x56x256 (attendAll (shapeCast S32x3136x256 (m ((c.tc : Thread nD τ).loc main_arg0)) shapeCasts_S32x56x56x256_S32x3136x256))
            shapeCasts_S32x3136x256_S32x56x56x256
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.KernelIdeal.Result

end
-- ==== Proof.ReferenceEntry.lean ====
/-
  The reference program's result, entry by entry.

  After the reshape to 32 images of 3136 positions by 256 channels, each of the reference's stages is read at an
  entry of image `b`: the batched product over positions is `gram` of that image, the scaled row maximum, the shifted
  exponentials, their row sums and the quotient are `rowMax`, `expo` and `soft`, and the batched product over
  channels followed by the reshape back and the residual sum is `attendAll` of the reshaped input, reshaped back.
-/
import proofs.«172703_j55396488183926_1_alg».proof.Proof.Gen.ReferenceIdeal.Read
import proofs.«172703_j55396488183926_1_alg».proof.Proof.Attention

noncomputable section

namespace Cert.ReferenceIdeal.Entry

open Cert.ReferenceIdeal Cert.ReferenceIdeal.Gen Cert.ReferenceIdeal.Read Idealize.ShloMosaic Idealize.ShloMosaic.ValueIdx
open Cert.ChannelAttn

variable (x0 : (⟨S32x56x56x256, .f32⟩ : BufTy).Contents (Elt Ideal))

/-- Image `b` of the reshaped input. -/
abbrev img (b : Fin 32) : Fin 3136 → Fin 256 → EReal := fun d c => val_main_v0 (F := Ideal) x0 (ix3 b d c)

/-- The batched product over positions, at image `b`, is that image's correlation. -/
theorem corr_apply (b : Fin 32) (i j : Fin 256) : val_main_v1 (F := Ideal) x0 (ix3 b i j) = gram (img x0 b) i j := by
  rw [val_main_v1_apply]
  unfold gram
  refine Finset.sum_congr rfl fun k _ => ?_
  have el : lidx_main_v1 (ix3 b i j) k = ix3 b k i := funext fun a => Fin.ext (by
    match a with | ⟨0, _⟩ => rfl | ⟨1, _⟩ => rfl | ⟨2, _⟩ => rfl)
  have er : ridx_main_v1 (ix3 b i j) k = ix3 b k j := funext fun a => Fin.ext (by
    match a with | ⟨0, _⟩ => rfl | ⟨1, _⟩ => rfl | ⟨2, _⟩ => rfl)
  rw [el, er]

theorem scaled_apply (b : Fin 32) (i j : Fin 256) :
    val_main_v3 (F := Ideal) x0 (ix3 b i j) = gram (img x0 b) i j * scale := by
  rw [val_main_v3_apply, val_main_v2_apply, val_main_cst_apply, corr_apply]
  rfl

/-- Row (b, i) with the reduced coordinate put back at `k` is entry (b, i, k). -/
theorem lift_row (h : S32x256x256.Reduces [2] S32x256) (b : Fin 32) (i : Fin 256) (k : Fin (S32x256x256.size 2)) :
    h.lift (ix2 b i) k = ix3 b i (⟨k.val, k.isLt⟩ : Fin 256) :=
  funext fun c => Fin.ext (by match c with | ⟨0, _⟩ => rfl | ⟨1, _⟩ => rfl | ⟨2, _⟩ => rfl)

/-- The last axis of the 32 × 256 × 256 array can be reduced away. -/
theorem reduces_last : S32x256x256.Reduces [2] S32x256 := by decide

theorem top_apply (b : Fin 32) (i : Fin 256) :
    val_main_v6 (F := Ideal) x0 (ix2 b i) = rowMax (gram (img x0 b)) i := by
  rw [val_main_v6_apply, val_main_v5_apply, val_main_cst_1_apply]
  unfold rowMax
  show max floorWord (val_main_v4 (F := Ideal) x0 (ix2 b i)) = _
  refine congrArg (max floorWord) ?_
  unfold val_main_v4
  refine (Host.reduce_eq_fold_single (FloatOps.maximumf (F := Ideal) (φ := .f32)) (val_main_v3 (F := Ideal) x0) (val_main_cst_0 (F := Ideal))
    reducesTo_S32x256x256_S32x256_d2 reduces_last h_S_ (ix2 b i)).trans ?_
  refine congrArg (fun f => Finset.fold max floorWord f (Finset.univ : Finset (Fin 256))) ?_
  funext k
  show val_main_v3 (F := Ideal) x0 (Shape.Reduces.lift _ (ix2 b i) k) = _
  rw [lift_row]
  exact scaled_apply x0 b i _

theorem expo_apply (b : Fin 32) (i j : Fin 256) :
    val_main_v10 (F := Ideal) x0 (ix3 b i j) = expo (gram (img x0 b)) i j := by
  rw [val_main_v10_apply, val_main_v9_apply, val_main_v8_apply, val_main_v7_apply]
  have e : idx_main_v7 (idx_main_v8 (ix3 b i j)) = ix2 b i := funext fun a => Fin.ext (by
    match a with | ⟨0, _⟩ => rfl | ⟨1, _⟩ => rfl)
  rw [e, top_apply, scaled_apply]
  rfl

theorem sum_apply (b : Fin 32) (i : Fin 256) :
    val_main_v11 (F := Ideal) x0 (ix2 b i) = ∑ k : Fin 256, expo (gram (img x0 b)) i k := by
  rw [val_main_v11_apply]
  show Ideal.ofBits .f32 0x00000000#32 + _ = _
  rw [Ideal.ofBits_zero_f32, zero_add]
  refine Finset.sum_congr rfl fun k _ => ?_
  have e : idx_main_v11 (ix2 b i) k = ix3 b i k := funext fun a => Fin.ext (by
    match a with | ⟨0, _⟩ => rfl | ⟨1, _⟩ => rfl | ⟨2, _⟩ => rfl)
  rw [e, expo_apply]

theorem soft_apply (b : Fin 32) (i j : Fin 256) :
    val_main_v14 (F := Ideal) x0 (ix3 b i j) = soft (gram (img x0 b)) i j := by
  rw [val_main_v14_apply, val_main_v13_apply, val_main_v12_apply]
  have e : idx_main_v12 (idx_main_v13 (ix3 b i j)) = ix2 b i := funext fun a => Fin.ext (by
    match a with | ⟨0, _⟩ => rfl | ⟨1, _⟩ => rfl)
  rw [e, sum_apply, expo_apply]
  rfl

/-- The batched product over channels, at image `b`. -/
theorem mix_apply (b : Fin 32) (d : Fin 3136) (i : Fin 256) :
    val_main_v15 (F := Ideal) x0 (ix3 b d i) = ∑ j : Fin 256, img x0 b d j * soft (gram (img x0 b)) i j := by
  rw [val_main_v15_apply]
  refine Finset.sum_congr rfl fun k _ => ?_
  have el : lidx_main_v15 (ix3 b d i) k = ix3 b d k := funext fun a => Fin.ext (by
    match a with | ⟨0, _⟩ => rfl | ⟨1, _⟩ => rfl | ⟨2, _⟩ => rfl)
  have er : ridx_main_v15 (ix3 b d i) k = ix3 b i k := funext fun a => Fin.ext (by
    match a with | ⟨0, _⟩ => rfl | ⟨1, _⟩ => rfl | ⟨2, _⟩ => rfl)
  rw [el, er, soft_apply]

/-- The reshape back to four axes reads the three-axis array at the entry with the same row-major position. -/
theorem reshape_back_apply (y : S32x3136x256.Idx → EReal) (i : S32x56x56x256.Idx) :
    shapeCast S32x56x56x256 y shapeCasts_S32x3136x256_S32x56x56x256 i = y (idx_main_v16 i) :=
  shapeCast_apply y shapeCasts_S32x3136x256_S32x56x56x256 i (idx_main_v16 i)
    (by rewrite [Shape.rowMajor_val_three, Shape.rowMajor_val_four]; have h0 : (i 0).val < 32 := (i 0).isLt; have h1 : (i 1).val < 56 := (i 1).isLt; have h2 : (i 2).val < 56 := (i 2).isLt; have h3 : (i 3).val < 256 := (i 3).isLt; show (((((i 0).val * 56 + (i 1).val) * 56 + (i 2).val) * 256 + (i 3).val) / 802816 * 3136 + ((((i 0).val * 56 + (i 1).val) * 56 + (i 2).val) * 256 + (i 3).val) / 256 % 3136) * 256 + ((((i 0).val * 56 + (i 1).val) * 56 + (i 2).val) * 256 + (i 3).val) % 256 = (((i 0).val * 56 + (i 1).val) * 56 + (i 2).val) * 256 + (i 3).val; omega)

/-- The reference's result is the attended batch, reshaped back. -/
theorem result_eq :
    val_main_v17 (F := Ideal) x0
      = shapeCast S32x56x56x256 (attendAll (shapeCast S32x3136x256 x0 shapeCasts_S32x56x56x256_S32x3136x256))
          shapeCasts_S32x3136x256_S32x56x56x256 := by
  funext i
  rw [val_main_v17_apply, val_main_v16_apply, reshape_back_apply]
  have hx : x0 i = val_main_v0 (F := Ideal) x0 (idx_main_v16 i) := by
    rw [← reshape_back_apply (val_main_v0 (F := Ideal) x0) i]
    unfold val_main_v0
    rw [shapeCast_shapeCast]
  obtain ⟨b, d, c, hj⟩ : ∃ (b : Fin 32) (d : Fin 3136) (c : Fin 256), idx_main_v16 i = ix3 b d c :=
    ⟨_, _, _, eq_ix3 _⟩
  rw [hx, hj, mix_apply]
  rfl

end Cert.ReferenceIdeal.Entry

end
-- ==== Proof.lean ====
/-
  Channel-wise self-attention with a residual: the Pallas kernel against the jnp reference, over the extended reals.

  Both programs reshape the input to 32 images of 3136 positions by 256 channels.  For each image `y` both compute
  the channel correlation `Σ_d y d i · y d j`, scale it by 1/16, take the softmax of each row (shift by the row
  maximum, exponentiate, divide by the row sum), mix the channels of every position with those weights and add the
  input back, and both reshape the result to four axes.  The kernel does this one image per grid point with two
  matrix products and lane reductions; the reference does it with two batched products and host reductions.  On the
  extended reals a matrix product is a finite sum of products in either program, a row maximum is a fold of `max`,
  and a change of float format is the identity, so both results are the same function `attendAll` of the reshaped
  input (Proof/Attention.lean), entry by entry: no algebraic law beyond reading each operation at an entry is
  needed, and the finiteness of the input is not used.

  The three frames are the generated ones (the reference's is its generated run with the result dropped); the
  idealization rewrote no operation, so `preserves` is trivial.
-/
import proofs.«172703_j55396488183926_1_alg».proof.Defs
import proofs.«172703_j55396488183926_1_alg».proof.Proof.Gen.Kernel
import proofs.«172703_j55396488183926_1_alg».proof.Proof.Gen.Kernel.Skeleton
import proofs.«172703_j55396488183926_1_alg».proof.Proof.Gen.Kernel.Launch
import proofs.«172703_j55396488183926_1_alg».proof.Proof.Gen.Kernel.Points
import proofs.«172703_j55396488183926_1_alg».proof.Proof.Gen.Kernel.Frame
import proofs.«172703_j55396488183926_1_alg».proof.Proof.Gen.KernelIdeal
import proofs.«172703_j55396488183926_1_alg».proof.Proof.Gen.KernelIdeal.Skeleton
import proofs.«172703_j55396488183926_1_alg».proof.Proof.Gen.KernelIdeal.Launch
import proofs.«172703_j55396488183926_1_alg».proof.Proof.Gen.KernelIdeal.Points
import proofs.«172703_j55396488183926_1_alg».proof.Proof.Gen.KernelIdeal.Frame
import proofs.«172703_j55396488183926_1_alg».proof.Proof.Gen.ReferenceIdeal
import proofs.«172703_j55396488183926_1_alg».proof.Proof.Gen.Pre_finite_inputs
import proofs.«172703_j55396488183926_1_alg».proof.Proof.Gen.ReferenceIdeal.Run
import proofs.«172703_j55396488183926_1_alg».proof.Proof.Gen.ReferenceIdeal.Read
import proofs.«172703_j55396488183926_1_alg».proof.Proof.KernelResult
import proofs.«172703_j55396488183926_1_alg».proof.Proof.ReferenceEntry
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the attended batch of the reshaped input, reshaped back to four axes. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Entry.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
